-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S_ : Shape := ⟨0, ![]⟩

class Facts : Prop where
  bcast_S_S16x512x256x5x5 : S_.BroadcastsInDim S16x512x256x5x5 (![] : Fin 0 → Fin S16x512x256x5x5.rank)
  reducesTo_S16x512x256x5x5_S_d0_1_2_3_4 : S16x512x256x5x5.ReducesTo [0, 1, 2, 3, 4] S_
  h_S_ : 0 < S_.numel
  bcast_S_S6400x256 : S_.BroadcastsInDim S6400x256 (![] : Fin 0 → Fin S6400x256.rank)
  reducesTo_S6400x256_S_d0_1 : S6400x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x21 : S_.BroadcastsInDim S64x21 (![] : Fin 0 → Fin S64x21.rank)
  reducesTo_S64x21_S_d0_1 : S64x21.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_arg4 : FVec F S64 .f32) (main_arg5 : FVec F S64x21 .f32) (main_arg6 : FVec F S21 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x21 .f32 := Host.absf main_arg5
  let main_cst_8 : FVec F S_ .f32 := constant S_ .f32 0x7F800000#32
  let main_v25 : FVec F S64x21 .f32 := broadcastInDim S64x21 ![] bcast_S_S64x21 main_cst_8
  let main_v26 : IVec S64x21 1 := cmpf .olt main_v24 main_v25
  let main_c_9 : IVec S_ 1 := constantI S_ 1 1#1
  let main_v27 : IVec S_ 1 := (fun x v => Host.reduce IntOp.andi x v reducesTo_S64x21_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  main_v33

def fn {F : FTy → Type} [FloatOps F] (main_arg0 : FVec F S16x512x256x5x5 .f32) (main_arg1 : FVec F S6400x256 .f32) (main_arg2 : FVec F S256 .f32) (main_arg3 : FVec F S256x64 .f32) (main_arg4 : FVec F S64 .f32) (main_arg5 : FVec F S64x21 .f32) (main_arg6 : FVec F S21 .f32) : IVec S_ 1 :=
  let main_v0 : FVec F S16x512x256x5x5 .f32 := Host.absf main_arg0
  let main_cst : FVec F S_ .f32 := constant S_ .f32 0x7F800000#32
  let main_v1 : FVec F S16x512x256x5x5 .f32 := broadcastInDim S16x512x256x5x5 ![] bcast_S_S16x512x256x5x5 main_cst
  let main_v2 : IVec S16x512x256x5x5 1 := cmpf .olt main_v0 main_v1
  let main_c : IVec S_ 1 := constantI S_ 1 1#1
  let main_v3 : IVec S_ 1 := (fun x v => Host.reduce IntOp.andi x v reducesTo_S16x512x256x5x5_S_d0_1_2_3_4 h_S_) main_v2 main_c
  let main_v4 : FVec F S6400x256 .f32 := Host.absf main_arg1
  let main_cst_0 : FVec F S_ .f32 := constant S_ .f32 0x7F800000#32
  let main_v5 : FVec F S6400x256 .f32 := broadcastInDim S6400x256 ![] bcast_S_S6400x256 main_cst_0
  let main_v6 : IVec S6400x256 1 := cmpf .olt main_v4 main_v5
  let main_c_1 : IVec S_ 1 := constantI S_ 1 1#1
  let main_v7 : IVec S_ 1 := (fun x v => Host.reduce IntOp.andi x v reducesTo_S6400x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S8192x6400 : Shape := ⟨2, ![8192, 6400]⟩
abbrev S1x256 : Shape := ⟨2, ![1, 256]⟩
abbrev S1x64 : Shape := ⟨2, ![1, 64]⟩
abbrev S1x21 : Shape := ⟨2, ![1, 21]⟩
abbrev S8192x21 : Shape := ⟨2, ![8192, 21]⟩
abbrev S256x6400 : Shape := ⟨2, ![256, 6400]⟩
abbrev S256x21 : Shape := ⟨2, ![256, 21]⟩
abbrev S256x256 : Shape := ⟨2, ![256, 256]⟩
abbrev S16x512x21 : Shape := ⟨3, ![16, 512, 21]⟩

abbrev nBuf : Space → Nat
  | .hbm => 13
  | .vmem => 10
  | .smem => 0
  | _ => 0

abbrev bufTy : (tb : Table) → Fin (tcTables nBuf tb) → BufTy
  | .hbm, ⟨0, _⟩ => ⟨S16x512x256x5x5, .f32⟩
  | .hbm, ⟨1, _⟩ => ⟨S6400x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64x21, .f32⟩
  | .hbm, ⟨6, _⟩ => ⟨S21, .f32⟩
  | .hbm, ⟨7, _⟩ => ⟨S8192x6400, .f32⟩
  | .hbm, ⟨8, _⟩ => ⟨S1x256, .f32⟩
  | .hbm, ⟨9, _⟩ => ⟨S1x64, .f32⟩
  | .hbm, ⟨10, _⟩ => ⟨S1x21, .f32⟩
  | .hbm, ⟨11, _⟩ => ⟨S8192x21, .f32⟩
  | .hbm, ⟨12, _⟩ => ⟨S16x512x21, .f32⟩
  | .local _ .vmem, ⟨0, _⟩ => ⟨S256x6400, .f32⟩
  | .local _ .vmem, ⟨1, _⟩ => ⟨S256x6400, .f32⟩
  | .local _ .vmem, ⟨2, _⟩ => ⟨S6400x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S64x21, .f32⟩
  | .local _ .vmem, ⟨7, _⟩ => ⟨S1x21, .f32⟩
  | .local _ .vmem, ⟨8, _⟩ => ⟨S256x21, .f32⟩
  | .local _ .vmem, ⟨9, _⟩ => ⟨S256x21, .f32⟩
  | _, _ => ⟨S16x512x256x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x21 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x21 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x512x256x5x5_S8192x6400 : S16x512x256x5x5.ShapeCasts S8192x6400
  shapeCasts_S256_S1x256 : S256.ShapeCasts S1x256
  shapeCasts_S64_S1x64 : S64.ShapeCasts S1x64
  shapeCasts_S21_S1x21 : S21.ShapeCasts S1x21
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  bitsLt_bf16_f32 : FTy.bits .bf16 < FTy.bits .f32
  inb_S6400x256_S6400x256_0_0 : ∀ a, (![0, 0] : Fin 2 → Nat) a + S6400x256.size a ≤ S6400x256.size a
  h_S6400x256 : 0 < S6400x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x21_S64x21_0_0 : ∀ a, (![0, 0] : Fin 2 → Nat) a + S64x21.size a ≤ S64x21.size a
  h_S64x21 : 0 < S64x21.numel
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S256x21 : S1x21.Broadcasts S256x21
  inb_S256x21_S256x21_0_0 : ∀ a, (![0, 0] : Fin 2 → Nat) a + S256x21.size a ≤ S256x21.size a
  h_S256x21 : 0 < S256x21.numel
  shapeCasts_S8192x21_S16x512x21 : S8192x21.ShapeCasts S16x512x21
  dot_S256x6400_S6400x256_S256x256_1_0_0_1_n_n_wf : DotDims.WF S256x6400 S6400x256 S256x256 [1] [0] [0] [1] [] []
  dot_S256x256_S256x64_S256x64_1_0_0_1_n_n_wf : DotDims.WF S256x256 S256x64 S256x64 [1] [0] [0] [1] [] []
  dot_S256x64_S64x21_S256x21_1_0_0_1_n_n_wf : DotDims.WF S256x64 S64x21 S256x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S8192x6400.size a
  hwx0_0 : ∀ i : grid0.Coords, EltTy.bits .f32 = 32 ∨ (Rect.block (s := S8192x6400) S256x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6400x256.size a ≤ S6400x256.size a
  hwx0_1 : ∀ i : grid0.Coords, EltTy.bits .f32 = 32 ∨ (Rect.block (s := S6400x256) S6400x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x21.size a ≤ S64x21.size a
  hwx0_5 : ∀ i : grid0.Coords, EltTy.bits .f32 = 32 ∨ (Rect.block (s := S64x21) S64x21.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x21.size a ≤ S1x21.size a
  hwx0_6 : ∀ i : grid0.Coords, EltTy.bits .f32 = 32 ∨ (Rect.block (s := S1x21) S1x21.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x21.size a ≤ S8192x21.size a
  hwx0_7 : ∀ i : grid0.Coords, EltTy.bits .f32 = 32 ∨ (Rect.block (s := S8192x21) S256x21.size (cc0_transform_7 i) (hinb0_7 i)).WholeWords (EltTy.packing .f32)

variable [Facts₀]

def dot_S256x6400_S6400x256_S256x256_1_0_0_1_n_n : DotDims S256x6400 S6400x256 S256x256 where
  lhsContracting := [1]
  rhsContracting := [0]
  lhsNonContracting := [0]
  rhsNonContracting := [1]
  lhsBatch := []
  rhsBatch := []
  wf := dot_S256x6400_S6400x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x21_S256x21_1_0_0_1_n_n : DotDims S256x64 S64x21 S256x21 where
  lhsContracting := [1]
  rhsContracting := [0]
  lhsNonContracting := [0]
  rhsNonContracting := [1]
  lhsBatch := []
  rhsBatch := []
  wf := dot_S256x64_S64x21_S256x21_1_0_0_1_n_n_wf

abbrev win0_0 : Pipeline.Window sig grid0 :=
  Pipeline.Window.ofSpec (Memref.whole main_v0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x21.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S8192x6400 : Shape := ⟨2, ![8192, 6400]⟩
abbrev S8192x256 : Shape := ⟨2, ![8192, 256]⟩
abbrev S1x256 : Shape := ⟨2, ![1, 256]⟩
abbrev S_ : Shape := ⟨0, ![]⟩
abbrev S8192x64 : Shape := ⟨2, ![8192, 64]⟩
abbrev S1x64 : Shape := ⟨2, ![1, 64]⟩
abbrev S8192x21 : Shape := ⟨2, ![8192, 21]⟩
abbrev S1x21 : Shape := ⟨2, ![1, 21]⟩
abbrev S16x512x21 : Shape := ⟨3, ![16, 512, 21]⟩

abbrev nBuf : Space → Nat
  | .hbm => 27
  | .vmem => 0
  | .smem => 0
  | _ => 0

abbrev bufTy : (tb : Table) → Fin (tcTables nBuf tb) → BufTy
  | .hbm, ⟨0, _⟩ => ⟨S16x512x256x5x5, .f32⟩
  | .hbm, ⟨1, _⟩ => ⟨S6400x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64x21, .f32⟩
  | .hbm, ⟨6, _⟩ => ⟨S21, .f32⟩
  | .hbm, ⟨7, _⟩ => ⟨S8192x6400, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x21, .f32⟩
  | .hbm, ⟨23, _⟩ => ⟨S1x21, .f32⟩
  | .hbm, ⟨24, _⟩ => ⟨S8192x21, .f32⟩
  | .hbm, ⟨25, _⟩ => ⟨S8192x21, .f32⟩
  | .hbm, ⟨26, _⟩ => ⟨S16x512x21, .f32⟩
  | _, _ => ⟨S16x512x256x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  shapeCasts_S16x512x256x5x5_S8192x6400 : S16x512x256x5x5.ShapeCasts S8192x6400
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S21_S1x21_1 : S21.BroadcastsInDim S1x21 (![1] : Fin 1 → Fin S1x21.rank)
  bcast_S1x21_S8192x21_0_1 : S1x21.BroadcastsInDim S8192x21 (![0, 1] : Fin 2 → Fin S8192x21.rank)
  shapeCasts_S8192x21_S16x512x21 : S8192x21.ShapeCasts S16x512x21
  dot_S8192x6400_S6400x256_S8192x256_1_0_0_1_n_n_wf : DotDims.WF S8192x6400 S6400x256 S8192x256 [1] [0] [0] [1] [] []
  dot_S8192x256_S256x64_S8192x64_1_0_0_1_n_n_wf : DotDims.WF S8192x256 S256x64 S8192x64 [1] [0] [0] [1] [] []
  dot_S8192x64_S64x21_S8192x21_1_0_0_1_n_n_wf : DotDims.WF S8192x64 S64x21 S8192x21 [1] [0] [0] [1] [] []

variable [Facts₀]

def dot_S8192x6400_S6400x256_S8192x256_1_0_0_1_n_n : DotDims S8192x6400 S6400x256 S8192x256 where
  lhsContracting := [1]
  rhsContracting := [0]
  lhsNonContracting := [0]
  rhsNonContracting := [1]
  lhsBatch := []
  rhsBatch := []
  wf := dot_S8192x6400_S6400x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x21_S8192x21_1_0_0_1_n_n : DotDims S8192x64 S64x21 S8192x21 where
  lhsContracting := [1]
  rhsContracting := [0]
  lhsNonContracting := [0]
  rhsNonContracting := [1]
  lhsBatch := []
  rhsBatch := []
  wf := dot_S8192x64_S64x21_S8192x21_1_0_0_1_n_n_wf

class Facts : Prop extends Facts₀ where

variable [Facts]
-- ==== Proof.RowMlp.lean ====
/-
  The function both programs compute, stated once and free of any program text.

  A three-layer perceptron acts on each row of its input independently: with weights
  `W₁ : 6400 × 256`, `W₂ : 256 × 64`, `W₃ : 64 × 21` and biases `b₁, b₂, b₃`, a row `v` of 6400 entries goes to

      dense W₃ b₃ (relu (dense W₂ b₂ (relu (dense W₁ b₁ v))))

  where `dense W b v j = (∑ k, v k · W k j) + b j` and `relu v j = max (v j) 0`, all on the extended reals.
  Because a row's result depends on that row alone, cutting the 8192 rows into 32 tiles of 256 changes
  nothing: the tile's row `p` at grid point `t` is row `256·t + p` of the whole array, and its result is the
  whole array's result at that row. No algebraic law beyond this is needed (in particular no distributivity,
  so the finiteness of the inputs is never used).
-/
import Idealize.ShloMosaic.PureOps.Ideal
import Idealize.ShloMosaic.Lib.ValueIdx

noncomputable section

open scoped BigOperators

namespace Cert.RowMlp

open Idealize.ShloMosaic Idealize.ShloMosaic.ValueIdx

/-- One affine layer on one row: `(∑ k, v k · W k j) + b j`. -/
def dense {K J : ℕ} (W : Fin K → Fin J → EReal) (b : Fin J → EReal) (v : Fin K → EReal) : Fin J → EReal :=
  fun j => (∑ k : Fin K, v k * W k j) + b j

/-- The rectifier, entry by entry: `max (v j) 0`. -/
def relu {J : ℕ} (v : Fin J → EReal) : Fin J → EReal := fun j => max (v j) 0

/-- The perceptron on one row of 6400 entries: 6400 → 256 → 64 → 21. -/
def rowMlp (W1 : Fin 6400 → Fin 256 → EReal) (b1 : Fin 256 → EReal) (W2 : Fin 256 → Fin 64 → EReal) (b2 : Fin 64 → EReal)
    (W3 : Fin 64 → Fin 21 → EReal) (b3 : Fin 21 → EReal) (v : Fin 6400 → EReal) : Fin 21 → EReal :=
  dense W3 b3 (relu (dense W2 b2 (relu (dense W1 b1 v))))

/-- The perceptron applied to every row of an `8192 × 6400` array, the weights and biases given as arrays:
    entry `(r, j)` of the result is the perceptron's `j`-th output on row `r`. -/
def mlp2d (X : (⟨2, ![8192, 6400]⟩ : Shape).Idx → EReal)
    (W1 : (⟨2, ![6400, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 21]⟩ : Shape).Idx → EReal) (b3 : (⟨1, ![21]⟩ : Shape).Idx → EReal) :
    (⟨2, ![8192, 21]⟩ : Shape).Idx → EReal :=
  fun i => rowMlp (fun k l => W1 (ix2 k l)) (fun l => b1 (ix1 l)) (fun l k => W2 (ix2 l k)) (fun k => b2 (ix1 k))
    (fun k j => W3 (ix2 k j)) (fun j => b3 (ix1 j)) (fun k => X (ix2 ⟨(i 0).val, (i 0).isLt⟩ k)) ⟨(i 1).val, (i 1).isLt⟩

theorem mlp2d_apply (X : (⟨2, ![8192, 6400]⟩ : Shape).Idx → EReal)
    (W1 : (⟨2, ![6400, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 21]⟩ : Shape).Idx → EReal) (b3 : (⟨1, ![21]⟩ : Shape).Idx → EReal) (r : Fin 8192) (j : Fin 21) :
    mlp2d X W1 b1 W2 b2 W3 b3 (ix2 r j)
      = rowMlp (fun k l => W1 (ix2 k l)) (fun l => b1 (ix1 l)) (fun l k => W2 (ix2 l k)) (fun k => b2 (ix1 k))
          (fun k j => W3 (ix2 k j)) (fun j => b3 (ix1 j)) (fun k => X (ix2 r k)) j := rfl

/-- The whole result: the `[16, 512, 256, 5, 5]` input flattened row-major to `8192` rows of `6400`, the perceptron on
    every row, and the `8192 × 21` result unflattened to `[16, 512, 21]`. -/
def result (x : (⟨5, ![16, 512, 256, 5, 5]⟩ : Shape).Idx → EReal)
    (W1 : (⟨2, ![6400, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (W3 : (⟨2, ![64, 21]⟩ : Shape).Idx → EReal) (b3 : (⟨1, ![21]⟩ : Shape).Idx → EReal)
    (hin : (⟨5, ![16, 512, 256, 5, 5]⟩ : Shape).ShapeCasts ⟨2, ![8192, 6400]⟩)
    (hout : (⟨2, ![8192, 21]⟩ : Shape).ShapeCasts ⟨3, ![16, 512, 21]⟩) :
    (⟨3, ![16, 512, 21]⟩ : Shape).Idx → EReal :=
  shapeCast _ (mlp2d (shapeCast _ x hin) W1 b1 W2 b2 W3 b3) hout

theorem dense_apply {K J : ℕ} (W : Fin K → Fin J → EReal) (b : Fin J → EReal) (v : Fin K → EReal) (j : Fin J) :
    dense W b v j = (∑ k : Fin K, v k * W k j) + b j := rfl

theorem relu_apply {J : ℕ} (v : Fin J → EReal) (j : Fin J) : relu v j = max (v j) 0 := rfl

/-- A layer's result depends on the row only through its entries. -/
theorem dense_congr {K J : ℕ} (W : Fin K → Fin J → EReal) (b : Fin J → EReal) {v v' : Fin K → EReal}
    (h : ∀ k, v k = v' k) : dense W b v = dense W b v' := by
  rw [show v = v' from funext h]

theorem relu_congr {J : ℕ} {v v' : Fin J → EReal} (h : ∀ j, v j = v' j) : relu v = relu v' := by
  rw [show v = v' from funext h]

end Cert.RowMlp

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.TileRows.lean ====
/-
  What the kernel body stores, read at one entry of its tile.

  At a grid point the body holds a tile of 256 rows of the flattened input, the three weight matrices whole, and the
  three biases as `1 × n` rows. At the exact instance the changes of float format are the identity, a product into a
  zero accumulator is the plain sum over the contracted axis, the `1 × n` bias broadcast to 256 rows reads the bias at
  the column, and the scalar zero the maximum is taken with is the real `0`. So the stored value at `(p, q)` is the
  perceptron applied to row `p` of the tile, read at `q`.
-/
import proofs.«108720_j74517682585655_1_alg».proof.Proof.Gen.KernelIdeal.Skeleton
import proofs.«108720_j74517682585655_1_alg».proof.Proof.RowMlp
import proofs.«108720_j74517682585655_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileRows

open Cert.KernelIdeal Cert.KernelIdeal.Gen Cert.RowMlp Cert.LibPlainProduct
open Idealize.ShloMosaic Idealize.ShloMosaic.ValueIdx

/-! ## The three products at an entry

Each of the body's three dimension records is the plain one (contract axis 1 of the left operand with axis 0 of the
right, no batch axis), so each product into its zero accumulator is the plain sum. -/

theorem product1 (a : FVec Ideal S256x6400 .bf16) (w : FVec Ideal S6400x256 .bf16) (p : Fin 256) (l : Fin 256) :
    matmul dot_S256x6400_S6400x256_S256x256_1_0_0_1_n_n none a w (constant S256x256 .f32 0x00000000#32) (ix2 p l)
      = ∑ k : Fin 6400, a (ix2 p k) * w (ix2 k l) :=
  matmul_zero_plain_apply a w none p l

theorem product2 (a : FVec Ideal S256x256 .bf16) (w : FVec Ideal S256x64 .bf16) (p : Fin 256) (k : Fin 64) :
    matmul dot_S256x256_S256x64_S256x64_1_0_0_1_n_n none a w (constant S256x64 .f32 0x00000000#32) (ix2 p k)
      = ∑ l : Fin 256, a (ix2 p l) * w (ix2 l k) :=
  matmul_zero_plain_apply a w none p k

theorem product3 (a : FVec Ideal S256x64 .bf16) (w : FVec Ideal S64x21 .bf16) (p : Fin 256) (j : Fin 21) :
    matmul dot_S256x64_S64x21_S256x21_1_0_0_1_n_n none a w (constant S256x21 .f32 0x00000000#32) (ix2 p j)
      = ∑ k : Fin 64, a (ix2 p k) * w (ix2 k j) :=
  matmul_zero_plain_apply a w none p j

/-! ## The three layers at an entry -/

/-- First hidden layer of the tile at `(p, l)`. -/
theorem layer1 (a : FVec Ideal S256x6400 .bf16) (w : FVec Ideal S6400x256 .bf16) (bb : FVec Ideal S1x256 .f32) (p : Fin 256) (l : Fin 256) :
    maximumf (addf (matmul dot_S256x6400_S6400x256_S256x256_1_0_0_1_n_n none a w (constant S256x256 .f32 0x00000000#32))
        (broadcastTo S256x256 bb broadcasts_S1x256_S256x256)) (broadcast S256x256 (Scalar.ofBits (F := Ideal) .f32 0x00000000#32)) (ix2 p l)
      = relu (dense (fun k l => w (ix2 k l)) (fun l => bb (ix2 (0 : Fin 1) l)) (fun k => a (ix2 p k))) l := by
  rw [maximumf_apply, addf_apply, broadcast_apply, product1, broadcastTo_1b_ab_apply, relu_apply, dense_apply]
  exact congrArg (max _) Ideal.ofBits_zero_f32

/-- Second hidden layer of the tile at `(p, k)`. -/
theorem layer2 (a : FVec Ideal S256x256 .bf16) (w : FVec Ideal S256x64 .bf16) (bb : FVec Ideal S1x64 .f32) (p : Fin 256) (k : Fin 64) :
    maximumf (addf (matmul dot_S256x256_S256x64_S256x64_1_0_0_1_n_n none a w (constant S256x64 .f32 0x00000000#32))
        (broadcastTo S256x64 bb broadcasts_S1x64_S256x64)) (broadcast S256x64 (Scalar.ofBits (F := Ideal) .f32 0x00000000#32)) (ix2 p k)
      = relu (dense (fun l k => w (ix2 l k)) (fun k => bb (ix2 (0 : Fin 1) k)) (fun l => a (ix2 p l))) k := by
  rw [maximumf_apply, addf_apply, broadcast_apply, product2, broadcastTo_1b_ab_apply, relu_apply, dense_apply]
  exact congrArg (max _) Ideal.ofBits_zero_f32

/-- Output layer of the tile at `(p, j)`: no rectifier after it. -/
theorem layer3 (a : FVec Ideal S256x64 .bf16) (w : FVec Ideal S64x21 .bf16) (bb : FVec Ideal S1x21 .f32) (p : Fin 256) (j : Fin 21) :
    addf (matmul dot_S256x64_S64x21_S256x21_1_0_0_1_n_n none a w (constant S256x21 .f32 0x00000000#32))
        (broadcastTo S256x21 bb broadcasts_S1x21_S256x21) (ix2 p j)
      = dense (fun k j => w (ix2 k j)) (fun j => bb (ix2 (0 : Fin 1) j)) (fun k => a (ix2 p k)) j := by
  rw [addf_apply, product3, broadcastTo_1b_ab_apply, dense_apply]

/-! ## The stored value -/

/-- The body's stored value at `(p, q)`: the perceptron on row `p` of the tile, read at `q`. The body's casts of a
    block to its own shape are the identity, and its changes of float format read through. -/
theorem stored_apply (v0 : Vec Ideal S256x6400 .f32) (v3 : Vec Ideal S6400x256 .f32) (v6 : Vec Ideal S1x256 .f32)
    (v13 : Vec Ideal S256x64 .f32) (v16 : Vec Ideal S1x64 .f32) (v23 : Vec Ideal S64x21 .f32) (v26 : Vec Ideal S1x21 .f32)
    (p : Fin 256) (q : Fin 21) :
    k0_pay1 (F := Ideal) v0 v3 v6 v13 v16 v23 v26 (ix2 p q)
      = rowMlp (fun k l => v3 (ix2 k l)) (fun l => v6 (ix2 (0 : Fin 1) l)) (fun l k => v13 (ix2 l k)) (fun k => v16 (ix2 (0 : Fin 1) k))
          (fun k j => v23 (ix2 k j)) (fun j => v26 (ix2 (0 : Fin 1) j)) (fun k => v0 (ix2 p k)) q := by
  unfold k0_pay1 rowMlp
  rw [shapeCast_self v0, shapeCast_self v6, shapeCast_self v16, shapeCast_self v26]
  refine (layer3 _ _ _ p q).trans ?_
  refine congrFun (dense_congr _ _ fun k => ?_) q
  refine (layer2 _ _ _ p k).trans ?_
  refine congrFun (congrArg relu (dense_congr _ _ fun l => ?_)) k
  exact layer1 _ _ _ p l

end Cert.KernelIdeal.TileRows

end
-- ==== Proof.TileArray.lean ====
/-
  From tiles to the whole array.

  The grid has 32 points; point `t` is handed rows `256·t … 256·t + 255` of the flattened input (all 6400 columns)
  and the weight and bias arrays whole, and writes back rows `256·t … 256·t + 255` of the `8192 × 21` result. Since the
  perceptron acts row by row, what point `t` writes back is exactly those rows of the perceptron applied to every row
  of the flattened input; the 32 tiles cover all 8192 rows (row `r` lies in tile `r / 256`), so after the region the
  result array is that function.
-/
import proofs.«108720_j74517682585655_1_alg».proof.Proof.Gen.KernelIdeal.Frame
import proofs.«108720_j74517682585655_1_alg».proof.Proof.TileRows
import Idealize.ShloMosaic.Lib.Pipeline.Value

noncomputable section

open Idealize.ShloMosaic Idealize.ShloMosaic.TcCoe Idealize.SL.Sem
open Idealize.ShloMosaic.Pipeline (Dat)

namespace Cert.KernelIdeal.TileArray

open Cert.KernelIdeal Cert.KernelIdeal.Gen Cert.KernelIdeal.TileRows Cert.RowMlp Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, each at its literal type -/

abbrev rowsIn (c : Dev nD) : Vec Ideal S8192x6400 .f32 := V m c main_v0
abbrev weight1 (c : Dev nD) : Vec Ideal S6400x256 .f32 := V m c main_arg1
abbrev biasRow1 (c : Dev nD) : Vec Ideal S1x256 .f32 := V m c main_v1
abbrev weight2 (c : Dev nD) : Vec Ideal S256x64 .f32 := V m c main_arg3
abbrev biasRow2 (c : Dev nD) : Vec Ideal S1x64 .f32 := V m c main_v2
abbrev weight3 (c : Dev nD) : Vec Ideal S64x21 .f32 := V m c main_arg5
abbrev biasRow3 (c : Dev nD) : Vec Ideal S1x21 .f32 := V m c main_v3

/-- The perceptron on every row of `X`, the biases given as `1 × n` rows (as the region finds them). -/
def rowsOf (X : Vec Ideal S8192x6400 .f32) (A1 : Vec Ideal S6400x256 .f32) (B1 : Vec Ideal S1x256 .f32)
    (A2 : Vec Ideal S256x64 .f32) (B2 : Vec Ideal S1x64 .f32) (A3 : Vec Ideal S64x21 .f32) (B3 : Vec Ideal S1x21 .f32) :
    Vec Ideal S8192x21 .f32 :=
  fun i => rowMlp (fun k l => A1 (ix2 k l)) (fun l => B1 (ix2 (0 : Fin 1) l)) (fun l k => A2 (ix2 l k)) (fun k => B2 (ix2 (0 : Fin 1) k))
    (fun k j => A3 (ix2 k j)) (fun j => B3 (ix2 (0 : Fin 1) j)) (fun k => X (ix2 ⟨(i 0).val, (i 0).isLt⟩ k)) ⟨(i 1).val, (i 1).isLt⟩

/-- What the result array holds after the region. -/
abbrev tiled (c : Dev nD) : Vec Ideal S8192x21 .f32 :=
  rowsOf (rowsIn m c) (weight1 m c) (biasRow1 m c) (weight2 m c) (biasRow2 m c) (weight3 m c) (biasRow3 m c)

/-! ## Where each window's block sits, decided over the 32 points -/

/-- The input tile moves with the output tile along the rows and spans all columns; the weights and biases are
    always block `(0, 0)`, the whole array; the output tile's column block is `0`. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 :=
  (by decide +kernel : ∀ t : Fin grid0.N, _)

/-- Every one of the 32 row tiles is some point's. -/
theorem idx_onto : ∀ q : Fin 32, ∃ t : Fin cfg0.N, win0_7.index t = ![q.val, 0] :=
  (by decide +kernel : ∀ q : Fin 32, ∃ t : Fin grid0.N, win0_7.index t = ![q.val, 0])

/-! ## Each input block, read off its array -/

/-- The input tile at point `t`, entry `(p, k)`: row `256·(tile index) + p` of the flattened input, column `k`. -/
theorem tile_apply (c : Dev nD) (t : Fin cfg0.N) (p : Fin 256) (k : Fin 6400) (r : Fin 8192)
    (hr : r.val = win0_7.index t (0 : Fin 2) * 256 + p.val) :
    (iblk m c 0 t : Vec Ideal S256x6400 .f32) (ix2 p k) = rowsIn m c (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 6400 + 1 * k.val = k.val; rw [e1]; omega

theorem block1 (c : Dev nD) (t : Fin cfg0.N) : (iblk m c 1 t : Vec Ideal S6400x256 .f32) = weight1 m c := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 6400 + 1 * (y 0).val = (y 0).val; rw [e0]; omega
  | ⟨1, _⟩ => show win0_1.index t (1 : Fin 2) * 256 + 1 * (y 1).val = (y 1).val; rw [e1]; omega

theorem block2 (c : Dev nD) (t : Fin cfg0.N) : (iblk m c 2 t : Vec Ideal S1x256 .f32) = biasRow1 m c := by
  obtain ⟨-, -, -, -, e0, e1, -⟩ := idx_facts t
  funext y
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem block3 (c : Dev nD) (t : Fin cfg0.N) : (iblk m c 3 t : Vec Ideal S256x64 .f32) = weight2 m c := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

theorem block4 (c : Dev nD) (t : Fin cfg0.N) : (iblk m c 4 t : Vec Ideal S1x64 .f32) = biasRow2 m c := by
  obtain ⟨-, -, -, -, -, -, -, -, e0, e1, -⟩ := idx_facts t
  funext y
  unfold iblk
  rw [View.read_apply]
  show V m c main_v2 _ = V m c main_v2 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem block5 (c : Dev nD) (t : Fin cfg0.N) : (iblk m c 5 t : Vec Ideal S64x21 .f32) = weight3 m c := by
  obtain ⟨-, -, -, -, -, -, -, -, -, -, e0, e1, -⟩ := idx_facts t
  funext y
  unfold iblk
  rw [View.read_apply]
  show V m c main_arg5 _ = V m c main_arg5 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 21 + 1 * (y 1).val = (y 1).val; rw [e1]; omega

theorem block6 (c : Dev nD) (t : Fin cfg0.N) : (iblk m c 6 t : Vec Ideal S1x21 .f32) = biasRow3 m c := by
  obtain ⟨-, -, -, -, -, -, -, -, -, -, -, -, e0, e1, -⟩ := idx_facts t
  funext y
  unfold iblk
  rw [View.read_apply]
  show V m c main_v3 _ = V m c main_v3 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 21 + 1 * (y 1).val = (y 1).val; rw [e1]; omega

/-! ## One stored entry as one entry of the whole result -/

/-- If row `y 0` of the tile is row `i 0` of `X` and the columns agree, the body's stored value at `y` is the
    perceptron on every row of `X`, read at `i`. -/
theorem stored_is_row (x0 : Vec Ideal S256x6400 .f32) (X : Vec Ideal S8192x6400 .f32) (A1 : Vec Ideal S6400x256 .f32)
    (B1 : Vec Ideal S1x256 .f32) (A2 : Vec Ideal S256x64 .f32) (B2 : Vec Ideal S1x64 .f32) (A3 : Vec Ideal S64x21 .f32)
    (B3 : Vec Ideal S1x21 .f32) (y : S256x21.Idx) (i : S8192x21.Idx)
    (hrow : ∀ k : Fin 6400, x0 (ix2 ⟨(y 0).val, (y 0).isLt⟩ k) = X (ix2 ⟨(i 0).val, (i 0).isLt⟩ k))
    (hcol : (y 1).val = (i 1).val) :
    k0_pay1 (F := Ideal) x0 A1 B1 A2 B2 A3 B3 y = rowsOf X A1 B1 A2 B2 A3 B3 i := by
  obtain ⟨p, q, rfl⟩ : ∃ (p : Fin 256) (q : Fin 21), y = ix2 p q := ⟨y 0, y 1, eq_ix2 y⟩
  rw [stored_apply]
  unfold rowsOf
  rw [show (fun k => x0 (ix2 p k)) = fun k => X (ix2 ⟨(i 0).val, (i 0).isLt⟩ k) from funext hrow]
  exact congrArg _ (Fin.ext hcol)

/-! ## What a point writes back, the cover, and the array after the region -/

/-- Point `t` writes back tile `t` of `tiled`. -/
theorem flushed_eq (c : Dev nD) (t : Fin cfg0.N) :
    (dats m 0 c).flushed 7 t = ((cfg0.win 7).blk t).view.read (Elt Ideal) (tiled m c) := by
  show (cfg0.win 7).cut (grid0.coords t) ((dats m 0 c).after 7 t) = _
  rw [after0_7]
  unfold out0_7
  rw [View.canon_unit_zero hz]
  simp only [View.ld_unit_zero (S := S256x6400) hz, View.ld_unit_zero (S := S6400x256) hz, View.ld_unit_zero (S := S1x256) hz,
    View.ld_unit_zero (S := S256x64) hz, View.ld_unit_zero (S := S1x64) hz, View.ld_unit_zero (S := S64x21) hz,
    View.ld_unit_zero (S := S1x21) hz]
  rw [block1, block2, block3, block4, block5, block6]
  obtain ⟨-, -, -, -, -, -, -, -, -, -, -, -, -, -, e71⟩ := idx_facts t
  funext j
  show k0_pay1 (F := Ideal) (iblk m c 0 t) (weight1 m c) (biasRow1 m c) (weight2 m c) (biasRow2 m c) (weight3 m c) (biasRow3 m c) j
    = tiled m c (((cfg0.win 7).blk t).view.emb j)
  refine stored_is_row _ (rowsIn m c) _ _ _ _ _ _ j _ (fun k => ?_) ?_
  · refine tile_apply m c t _ k _ ?_
    show win0_7.index t (0 : Fin 2) * 256 + 1 * (j 0).val = win0_7.index t (0 : Fin 2) * 256 + (j 0).val
    omega
  · show (j 1).val = win0_7.index t (1 : Fin 2) * 21 + 1 * (j 1).val
    rw [e71]; omega

/-- An index of the result array is in point `t`'s tile iff each coordinate is in the tile's range. -/
theorem mem_blk (t : Fin cfg0.N) (i : S8192x21.Idx) :
    i ∈ ((cfg0.win 7).blk t).view.set ↔ ∀ a : Fin 2, win0_7.index t a * S256x21.size a ≤ (i a).val ∧ (i a).val < win0_7.index t a * S256x21.size a + S256x21.size a := by
  show i ∈ ((View.whole main_v4).slice (win0_7.rect t)).set ↔ _
  rw [View.set_slice_whole, Rect.mem_set_unit]
  exact Iff.rfl

/-- Every entry of the result array lies in some point's tile: row `r` in tile `r / 256`. -/
theorem cover (i : S8192x21.Idx) : ∃ t : Fin cfg0.N, (cfg0.win 7).flush t = true ∧ i ∈ ((cfg0.win 7).blk t).view.set := by
  have hi0 : (i 0).val < 8192 := (i 0).isLt
  have hi1 : (i 1).val < 21 := (i 1).isLt
  obtain ⟨t, ht⟩ := idx_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 21 ≤ (i 1).val ∧ (i 1).val < win0_7.index t (1 : Fin 2) * 21 + 21; omega

/-- After the region the result array holds the perceptron on every row of the flattened input. -/
theorem final (c : Dev nD) : (dats m 0 c).arrAt 7 cfg0.N = tiled m c :=
  (dats m 0 c).arrAt_eq_of_cover 7 (tiled m c) (fun t _ => flushed_eq m c t) cover

end Cert.KernelIdeal.TileArray

end
-- ==== Proof.KernelRun.lean ====
/-
  The idealized kernel program's run, with its result named.

  Before the region the program flattens the input to `8192 × 6400` and turns each bias into a `1 × n` row; after it,
  it unflattens the `8192 × 21` array the region left to `[16, 512, 21]`. A `1 × n` row cast from a length-`n` vector
  reads that vector at the column, so the array the region leaves is the perceptron on every row of the flattened
  input with the biases as given, and the program's result is the stated function of its arguments.
-/
import proofs.«108720_j74517682585655_1_alg».proof.Proof.Gen.KernelIdeal.Frame
import proofs.«108720_j74517682585655_1_alg».proof.Proof.TileArray
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.TileArray Cert.RowMlp Idealize.ShloMosaic.ValueIdx

variable (m : (ℓ : Loc nD τ sig) → Buf (Elt Ideal) ℓ) (ρ : Dev nD → PrngReg)

/-! ## The arrays the region finds, in terms of the arguments -/

theorem rowsIn_eq (c : Dev nD) :
    rowsIn m c = shapeCast _ (m ((c.tc : Thread nD τ).loc main_arg0)) shapeCasts_S16x512x256x5x5_S8192x6400 := by
  show StableHlo.after hostOps0 (fun b => m (c, b)) (Proc.devRef .tc main_v0) = _
  after_results
  rfl

theorem biasRow1_eq (c : Dev nD) :
    biasRow1 m c = shapeCast _ (m ((c.tc : Thread nD τ).loc main_arg2)) shapeCasts_S256_S1x256 := by
  show StableHlo.after hostOps0 (fun b => m (c, b)) (Proc.devRef .tc main_v1) = _
  after_results
  rfl

theorem biasRow2_eq (c : Dev nD) :
    biasRow2 m c = shapeCast _ (m ((c.tc : Thread nD τ).loc main_arg4)) shapeCasts_S64_S1x64 := by
  show StableHlo.after hostOps0 (fun b => m (c, b)) (Proc.devRef .tc main_v2) = _
  after_results
  rfl

theorem biasRow3_eq (c : Dev nD) :
    biasRow3 m c = shapeCast _ (m ((c.tc : Thread nD τ).loc main_arg6)) shapeCasts_S21_S1x21 := by
  show StableHlo.after hostOps0 (fun b => m (c, b)) (Proc.devRef .tc main_v3) = _
  after_results
  rfl

theorem weight1_eq (c : Dev nD) : weight1 m c = m ((c.tc : Thread nD τ).loc main_arg1) := V_main_arg1 m c
theorem weight2_eq (c : Dev nD) : weight2 m c = m ((c.tc : Thread nD τ).loc main_arg3) := V_main_arg3 m c
theorem weight3_eq (c : Dev nD) : weight3 m c = m ((c.tc : Thread nD τ).loc main_arg5) := V_main_arg5 m c

/-! ## Biases as rows -/

/-- With each bias row the cast of a bias vector, the row form is the perceptron with the bias vectors. -/
theorem rowsOf_cast (X : Vec Ideal S8192x6400 .f32) (A1 : Vec Ideal S6400x256 .f32) (b1 : Vec Ideal S256 .f32)
    (A2 : Vec Ideal S256x64 .f32) (b2 : Vec Ideal S64 .f32) (A3 : Vec Ideal S64x21 .f32) (b3 : Vec Ideal S21 .f32) :
    rowsOf X A1 (shapeCast S1x256 b1 shapeCasts_S256_S1x256) A2 (shapeCast S1x64 b2 shapeCasts_S64_S1x64)
        A3 (shapeCast S1x21 b3 shapeCasts_S21_S1x21)
      = mlp2d X A1 b1 A2 b2 A3 b3 := by
  funext i
  unfold rowsOf mlp2d
  rw [show (fun l : Fin 256 => shapeCast S1x256 b1 shapeCasts_S256_S1x256 (ix2 (0 : Fin 1) l)) = fun l => b1 (ix1 l) from
      funext fun l => shapeCast_a_1a_apply b1 shapeCasts_S256_S1x256 0 l,
    show (fun k : Fin 64 => shapeCast S1x64 b2 shapeCasts_S64_S1x64 (ix2 (0 : Fin 1) k)) = fun k => b2 (ix1 k) from
      funext fun k => shapeCast_a_1a_apply b2 shapeCasts_S64_S1x64 0 k,
    show (fun j : Fin 21 => shapeCast S1x21 b3 shapeCasts_S21_S1x21 (ix2 (0 : Fin 1) j)) = fun j => b3 (ix1 j) from
      funext fun j => shapeCast_a_1a_apply b3 shapeCasts_S21_S1x21 0 j]

/-- What the region leaves, as a function of the arguments. -/
theorem tiled_eq (c : Dev nD) :
    tiled m c = mlp2d (shapeCast _ (m ((c.tc : Thread nD τ).loc main_arg0)) shapeCasts_S16x512x256x5x5_S8192x6400)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  show rowsOf (rowsIn m c) (weight1 m c) (biasRow1 m c) (weight2 m c) (biasRow2 m c) (weight3 m c) (biasRow3 m c) = _
  rw [rowsIn_eq, weight1_eq, biasRow1_eq, weight2_eq, biasRow2_eq, weight3_eq, biasRow3_eq]
  exact rowsOf_cast _ _ _ _ _ _ _

/-! ## The reshape after the region, and the run -/

/-- The program's result buffer after the lines that follow the region: the region's array unflattened. -/
theorem tail_eq (c : Dev nD) :
    Pipeline.afterTail₀ cfgs (dats m) 0 (V0 m) [hostOps1] c main_v5
      = shapeCast _ (tiled m c) shapeCasts_S8192x21_S16x512x21 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = tiled m c :=
    (Pipeline.withArrays_arr spec0 launch0.win.arr_inj c (V0 m c) (fun w => (dats m 0 c).arrAt w (cfgs 0).N) 7).trans (final m c)
  rw [e]
  rfl

/-- Every weakly fair execution of the idealized kernel program terminates with its result buffer at the stated
    function of its arguments and the arguments unchanged. The result is read off the frame run: the result buffer is
    no array of the region, so it ends as the lines after the region leave it; each argument the region stages ends at
    its entry contents, each other argument as launched. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) shapeCasts_S16x512x256x5x5_S8192x6400 shapeCasts_S8192x21_S16x512x21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v5 (Pipeline.mem_restRefs_of main_v5 (by decide) (by decide))).trans
        ((tail_eq m c).trans (by rw [tiled_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KernelRun

end
-- ==== Proof.RefRows.lean ====
/-
  The reference program read row by row.

  The reference flattens the input to `8192 × 6400`, then three times multiplies by a weight matrix, adds the bias
  broadcast along the rows and (twice) takes the maximum with zero, and unflattens the `8192 × 21` result. Read at
  entry `(r, j)`, each matrix product is the sum over the contracted axis of row `r` of the left operand against
  column `j` of the weights, the bias broadcast reads the bias at `j`, and the zero it is compared with is the real
  `0`. So each stage at row `r` is one layer of the perceptron applied to the previous stage's row `r`, and the
  `8192 × 21` array before the last reshape is the perceptron on every row of the flattened input.
-/
import proofs.«108720_j74517682585655_1_alg».proof.Proof.Gen.ReferenceIdeal.Read
import proofs.«108720_j74517682585655_1_alg».proof.Proof.RowMlp

noncomputable section

open scoped BigOperators

namespace Cert.ReferenceIdeal.RefRows

open Cert.ReferenceIdeal Cert.ReferenceIdeal.Gen Cert.ReferenceIdeal.Read Cert.RowMlp
open Idealize.ShloMosaic Idealize.ShloMosaic.ValueIdx

variable (x0 : (⟨S16x512x256x5x5, .f32⟩ : BufTy).Contents (Elt Ideal)) (x1 : (⟨S6400x256, .f32⟩ : BufTy).Contents (Elt Ideal))
  (x2 : (⟨S256, .f32⟩ : BufTy).Contents (Elt Ideal)) (x3 : (⟨S256x64, .f32⟩ : BufTy).Contents (Elt Ideal))
  (x4 : (⟨S64, .f32⟩ : BufTy).Contents (Elt Ideal)) (x5 : (⟨S64x21, .f32⟩ : BufTy).Contents (Elt Ideal))
  (x6 : (⟨S21, .f32⟩ : BufTy).Contents (Elt Ideal))

/-! ## Where each stage reads its operands, by coordinates -/

theorem left1 (r : Fin 8192) (l : Fin 256) (k : Fin 6400) : lidx_main_v1 (ix2 r l) k = ix2 r k :=
  funext fun a => Fin.ext (by match a with | ⟨0, _⟩ => rfl | ⟨1, _⟩ => rfl)
theorem right1 (r : Fin 8192) (l : Fin 256) (k : Fin 6400) : ridx_main_v1 (ix2 r l) k = ix2 k l :=
  funext fun a => Fin.ext (by match a with | ⟨0, _⟩ => rfl | ⟨1, _⟩ => rfl)
theorem bias1 (r : Fin 8192) (l : Fin 256) : idx_main_v2 (idx_main_v3 (ix2 r l)) = ix1 l :=
  funext fun a => Fin.ext (by match a with | ⟨0, _⟩ => rfl)

theorem left2 (r : Fin 8192) (k : Fin 64) (l : Fin 256) : lidx_main_v6 (ix2 r k) l = ix2 r l :=
  funext fun a => Fin.ext (by match a with | ⟨0, _⟩ => rfl | ⟨1, _⟩ => rfl)
theorem right2 (r : Fin 8192) (k : Fin 64) (l : Fin 256) : ridx_main_v6 (ix2 r k) l = ix2 l k :=
  funext fun a => Fin.ext (by match a with | ⟨0, _⟩ => rfl | ⟨1, _⟩ => rfl)
theorem bias2 (r : Fin 8192) (k : Fin 64) : idx_main_v7 (idx_main_v8 (ix2 r k)) = ix1 k :=
  funext fun a => Fin.ext (by match a with | ⟨0, _⟩ => rfl)

theorem left3 (r : Fin 8192) (j : Fin 21) (k : Fin 64) : lidx_main_v11 (ix2 r j) k = ix2 r k :=
  funext fun a => Fin.ext (by match a with | ⟨0, _⟩ => rfl | ⟨1, _⟩ => rfl)
theorem right3 (r : Fin 8192) (j : Fin 21) (k : Fin 64) : ridx_main_v11 (ix2 r j) k = ix2 k j :=
  funext fun a => Fin.ext (by match a with | ⟨0, _⟩ => rfl | ⟨1, _⟩ => rfl)
theorem bias3 (r : Fin 8192) (j : Fin 21) : idx_main_v12 (idx_main_v13 (ix2 r j)) = ix1 j :=
  funext fun a => Fin.ext (by match a with | ⟨0, _⟩ => rfl)

/-! ## The three layers at a row -/

/-- The first hidden layer at `(r, l)`: the rectified affine image of row `r` of the flattened input. -/
theorem hidden1 (r : Fin 8192) (l : Fin 256) :
    val_main_v5 (F := Ideal) x0 x1 x2 (ix2 r l)
      = relu (dense (fun k l => x1 (ix2 k l)) (fun l => x2 (ix1 l)) (fun k => val_main_v0 (F := Ideal) x0 (ix2 r k))) l := by
  rw [val_main_v5_apply, val_main_v4_apply, val_main_v1_apply, val_main_v3_apply, val_main_v2_apply,
    val_main_call0_v0_apply, val_main_call0_cst_apply, relu_apply, dense_apply]
  simp only [left1, right1, bias1, Ideal.maximumf_def, Ideal.addf_def, Ideal.ofBits_def, Ideal.ofBits_zero_f32]

/-- The second hidden layer at `(r, k)`, over the first at row `r`. -/
theorem hidden2 (r : Fin 8192) (k : Fin 64) :
    val_main_v10 (F := Ideal) x0 x1 x2 x3 x4 (ix2 r k)
      = relu (dense (fun l k => x3 (ix2 l k)) (fun k => x4 (ix1 k)) (fun l => val_main_v5 (F := Ideal) x0 x1 x2 (ix2 r l))) k := by
  rw [val_main_v10_apply, val_main_v9_apply, val_main_v6_apply, val_main_v8_apply, val_main_v7_apply,
    val_main_call1_v0_apply, val_main_call1_cst_apply, relu_apply, dense_apply]
  simp only [left2, right2, bias2, Ideal.maximumf_def, Ideal.addf_def, Ideal.ofBits_def, Ideal.ofBits_zero_f32]

/-- The output layer at `(r, j)`, over the second hidden layer at row `r`. -/
theorem output (r : Fin 8192) (j : Fin 21) :
    val_main_v14 (F := Ideal) x0 x1 x2 x3 x4 x5 x6 (ix2 r j)
      = dense (fun k j => x5 (ix2 k j)) (fun j => x6 (ix1 j)) (fun k => val_main_v10 (F := Ideal) x0 x1 x2 x3 x4 (ix2 r k)) j := by
  rw [val_main_v14_apply, val_main_v11_apply, val_main_v13_apply, val_main_v12_apply, dense_apply]
  simp only [left3, right3, bias3, Ideal.addf_def]

/-- The array before the last reshape is the perceptron on every row of the flattened input. -/
theorem rows : val_main_v14 (F := Ideal) x0 x1 x2 x3 x4 x5 x6
    = mlp2d (val_main_v0 (F := Ideal) x0) x1 x2 x3 x4 x5 x6 := by
  funext i
  obtain ⟨r, j, rfl⟩ : ∃ (r : Fin 8192) (j : Fin 21), i = ix2 r j := ⟨i 0, i 1, eq_ix2 i⟩
  rw [mlp2d_apply, output]
  unfold rowMlp
  refine congrFun (dense_congr _ _ fun k => ?_) j
  rw [hidden2]
  refine congrFun (congrArg relu (dense_congr _ _ fun l => ?_)) k
  exact hidden1 x0 x1 x2 r l

/-- The reference's result is the stated function of its arguments. -/
theorem result_eq : val_main_v15 (F := Ideal) x0 x1 x2 x3 x4 x5 x6
    = result x0 x1 x2 x3 x4 x5 x6 shapeCasts_S16x512x256x5x5_S8192x6400 shapeCasts_S8192x21_S16x512x21 := by
  unfold val_main_v15 result
  rw [rows]
  rfl

end Cert.ReferenceIdeal.RefRows

end
-- ==== Proof.lean ====
/-
  A fused three-layer perceptron against its plain reference, over the extended reals.

  The kernel flattens a `[16, 512, 256, 5, 5]` input to 8192 rows of 6400, and on each tile of 256 rows computes
  `relu (relu (x·W₁ + b₁)·W₂ + b₂)·W₃ + b₃` in one pass, rounding the operands of each product to a narrower float format
  on the way; the reference computes the same three products on the whole array without that rounding. At the exact
  instance a change of float format is the identity, a product into a zero accumulator and the host's product are the
  same finite sum over the contracted axis, and `relu` is the maximum with the real zero on both sides. The perceptron
  acts on each row independently, so tiling the rows changes nothing: both programs end with the one function
  `Cert.RowMlp.result` of their arguments. No law that could fail at an infinity is used, so the finiteness of the inputs
  is never opened.

  The kernel side (`TileRows`, `TileArray`, `KernelRun`) reads the stored tile at an entry, covers the result array by
  the 32 tiles and follows the reshape after the region; the reference side (`RefRows`) reads each stage of the
  reference at a row. The idealization rewrote no operation, so `preserves` has nothing to state.
-/
import proofs.«108720_j74517682585655_1_alg».proof.Defs
import proofs.«108720_j74517682585655_1_alg».proof.Proof.Gen.Kernel
import proofs.«108720_j74517682585655_1_alg».proof.Proof.Gen.Kernel.Skeleton
import proofs.«108720_j74517682585655_1_alg».proof.Proof.Gen.Kernel.Launch
import proofs.«108720_j74517682585655_1_alg».proof.Proof.Gen.Kernel.Points
import proofs.«108720_j74517682585655_1_alg».proof.Proof.Gen.Kernel.Frame
import proofs.«108720_j74517682585655_1_alg».proof.Proof.Gen.KernelIdeal
import proofs.«108720_j74517682585655_1_alg».proof.Proof.Gen.KernelIdeal.Skeleton
import proofs.«108720_j74517682585655_1_alg».proof.Proof.Gen.KernelIdeal.Launch
import proofs.«108720_j74517682585655_1_alg».proof.Proof.Gen.KernelIdeal.Points
import proofs.«108720_j74517682585655_1_alg».proof.Proof.Gen.KernelIdeal.Frame
import proofs.«108720_j74517682585655_1_alg».proof.Proof.Gen.ReferenceIdeal
import proofs.«108720_j74517682585655_1_alg».proof.Proof.Gen.Pre_finite_inputs
import proofs.«108720_j74517682585655_1_alg».proof.Proof.Gen.ReferenceIdeal.Run
import proofs.«108720_j74517682585655_1_alg».proof.Proof.Gen.ReferenceIdeal.Read
import proofs.«108720_j74517682585655_1_alg».proof.Proof.KernelRun
import proofs.«108720_j74517682585655_1_alg».proof.Proof.RefRows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the perceptron applied to every row
    of the flattened input, unflattened: the same function of the same arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefRows.result_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
